-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .hbm, ⟨4, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S_ : Shape := ⟨0, ![]⟩
abbrev S32x2048x2048 : Shape := ⟨3, ![32, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S_, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S32x2048x2048, .f32⟩
  | .hbm, ⟨8, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Attention.lean ====
/-
  Scaled dot-product attention with no softmax, as two functions of the argument arrays on the extended reals,
  entry by entry: the scores `S[b, r, c] = (∑ d, q[b, r, d] · k[b, c, d]) · (1/8)` over `[32, 2048, 2048]`, and the
  mixed values `O[b, r, e] = ∑ c, S[b, r, c] · v[b, c, e]` over `[32, 2048, 64]`. The head dimension is 64, whose
  square root is 8, so dividing a score by `√64` and multiplying it by the dyadic `0.125` are one operation on
  every extended real, the infinities included (`div_sqrt_64`).
-/
import Idealize.ShloMosaic.PureOps.Ideal
import Idealize.ShloMosaic.Lib.ValueIdx

noncomputable section

open scoped BigOperators

namespace Cert.Attention

open Idealize.ShloMosaic Idealize.ShloMosaic.ValueIdx

/-- The shape of `q`, `k`, `v` and of the mixed values. -/
abbrev Sqkv : Shape := ⟨3, ![32, 2048, 64]⟩
/-- The shape of the scores. -/
abbrev Sscore : Shape := ⟨3, ![32, 2048, 2048]⟩

/-- One score: row `r` of `q` against row `c` of `k` in batch `b`, scaled by the printed word of `0.125`. -/
def scoreAt (q k : Sqkv.Idx → EReal) (b : Fin 32) (r c : Fin 2048) : EReal :=
  (∑ d : Fin 64, q (ix3 b r d) * k (ix3 b c d)) * Ideal.ofBits .f32 0x3E000000#32

/-- The scores, entry by entry. -/
def scores (q k : Sqkv.Idx → EReal) : Sscore.Idx → EReal := fun i => scoreAt q k (i 0) (i 1) (i 2)

/-- One mixed value: row `r` of the scores against column `e` of `v` in batch `b`. -/
def mixedAt (q k v : Sqkv.Idx → EReal) (b : Fin 32) (r : Fin 2048) (e : Fin 64) : EReal :=
  ∑ c : Fin 2048, scoreAt q k b r c * v (ix3 b c e)

/-- The mixed values, entry by entry. -/
def mixed (q k v : Sqkv.Idx → EReal) : Sqkv.Idx → EReal := fun i => mixedAt q k v (i 0) (i 1) (i 2)

/-- The word `0x42800000` denotes the real 64. -/
theorem ofBits_64 : Ideal.ofBits .f32 0x42800000#32 = ((64 : ℝ) : EReal) := by
  simp [Ideal.ofBits, Ideal.ieee, -EReal.coe_mul]; norm_num

/-- The word `0x3E000000` denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 ^ 2 by norm_num, Real.sqrt_sq (by norm_num)]

/-- Dividing by `√64` is multiplying by `0.125`, on every extended real. -/
theorem div_sqrt_64 (x : EReal) :
    Ideal.div x (Ideal.sqrt (Ideal.ofBits .f32 0x42800000#32)) = x * Ideal.ofBits .f32 0x3E000000#32 := by
  rw [sqrt_64, Ideal.div_coe (by norm_num : (8 : ℝ) ≠ 0), ofBits_eighth]

end Cert.Attention

end
-- ==== Proof.Tile.lean ====
/-
  What one grid point's body computes, entry by entry, on the extended reals. The body loads a `[1, 512, 64]` tile of
  `q` and the whole `[1, 2048, 64]` slabs of `k` and `v` of one batch. Its score tile is
  `S[r, c] = (∑ d, q[0, r, d] · k[0, c, d]) · 0.125` over `[512, 2048]` (a matrix product contracting the last axis
  of both operands, into a zero accumulator, then the scale), and its mixed tile is
  `O[r, e] = ∑ c, S[r, c] · v[0, c, e]` over `[512, 64]` (a second product, contracting the scores' columns with
  the slab's rows, again into zero). The narrowing of the operands to sixteen bits before each product is the
  identity on the extended reals, and the casts between `[1, n, m]` and `[n, m]` only drop or add the unit axis.
-/
import proofs.«177338_j57827439674168_1_alg».proof.Proof.Gen.KernelIdeal.Skeleton
import proofs.«177338_j57827439674168_1_alg».proof.Proof.Attention
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The operand indices of the two products -/

/-- First product, left operand: its row is the result's row. -/
theorem qk_lhs_0 (j : S512x2048.Idx) (p : dot_S512x64_S2048x64_S512x2048_1_1_0_0_n_n.contr.Idx) :
    (dot_S512x64_S2048x64_S512x2048_1_1_0_0_n_n.lhsIdx j p 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- First product, left operand: its column is the contraction coordinate. -/
theorem qk_lhs_1 (j : S512x2048.Idx) (p : dot_S512x64_S2048x64_S512x2048_1_1_0_0_n_n.contr.Idx) :
    (dot_S512x64_S2048x64_S512x2048_1_1_0_0_n_n.lhsIdx j p 1).val = (p ⟨0, by decide⟩).val :=
  dot_S512x64_S2048x64_S512x2048_1_1_0_0_n_n.lhsIdx_val_of_single rfl j p
/-- First product, right operand: its row is the result's column. -/
theorem qk_rhs_0 (j : S512x2048.Idx) (p : dot_S512x64_S2048x64_S512x2048_1_1_0_0_n_n.contr.Idx) :
    (dot_S512x64_S2048x64_S512x2048_1_1_0_0_n_n.rhsIdx j p 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- First product, right operand: its column is the contraction coordinate. -/
theorem qk_rhs_1 (j : S512x2048.Idx) (p : dot_S512x64_S2048x64_S512x2048_1_1_0_0_n_n.contr.Idx) :
    (dot_S512x64_S2048x64_S512x2048_1_1_0_0_n_n.rhsIdx j p 1).val = (p ⟨0, by decide⟩).val :=
  dot_S512x64_S2048x64_S512x2048_1_1_0_0_n_n.rhsIdx_val_of_single rfl j p

/-- Second product, left operand: its row is the result's row. -/
theorem sv_lhs_0 (j : S512x64.Idx) (p : dot_S512x2048_S2048x64_S512x64_1_0_0_1_n_n.contr.Idx) :
    (dot_S512x2048_S2048x64_S512x64_1_0_0_1_n_n.lhsIdx j p 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- Second product, left operand: its column is the contraction coordinate. -/
theorem sv_lhs_1 (j : S512x64.Idx) (p : dot_S512x2048_S2048x64_S512x64_1_0_0_1_n_n.contr.Idx) :
    (dot_S512x2048_S2048x64_S512x64_1_0_0_1_n_n.lhsIdx j p 1).val = (p ⟨0, by decide⟩).val :=
  dot_S512x2048_S2048x64_S512x64_1_0_0_1_n_n.lhsIdx_val_of_single rfl j p
/-- Second product, right operand: its row is the contraction coordinate. -/
theorem sv_rhs_0 (j : S512x64.Idx) (p : dot_S512x2048_S2048x64_S512x64_1_0_0_1_n_n.contr.Idx) :
    (dot_S512x2048_S2048x64_S512x64_1_0_0_1_n_n.rhsIdx j p 0).val = (p ⟨0, by decide⟩).val :=
  dot_S512x2048_S2048x64_S512x64_1_0_0_1_n_n.rhsIdx_val_of_single rfl j p
/-- Second product, right operand: its column is the result's column. -/
theorem sv_rhs_1 (j : S512x64.Idx) (p : dot_S512x2048_S2048x64_S512x64_1_0_0_1_n_n.contr.Idx) :
    (dot_S512x2048_S2048x64_S512x64_1_0_0_1_n_n.rhsIdx j p 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-! ## Dropping the unit axis -/

/-- A `[1, 512, 64]` tile cast to `[512, 64]` reads the tile at the same row and column. -/
theorem drop_q (x : Vec Ideal S1x512x64 .f32) (j : S512x64.Idx) (r : Fin 512) (d : Fin 64)
    (h0 : (j 0).val = r.val) (h1 : (j 1).val = d.val) :
    shapeCast S512x64 x shapeCasts_S1x512x64_S512x64 j = x (ix3 0 r d) := by
  refine shapeCast_apply _ _ j (ix3 0 r d) ?_
  rw [Shape.rowMajor_val_two, Shape.rowMajor_val_three, h0, h1]
  show ((0 : ℕ) * 512 + r.val) * 64 + d.val = r.val * 64 + d.val
  omega

/-- A `[1, 2048, 64]` slab cast to `[2048, 64]` reads the slab at the same row and column. -/
theorem drop_kv (x : Vec Ideal S1x2048x64 .f32) (j : S2048x64.Idx) (c : Fin 2048) (d : Fin 64)
    (h0 : (j 0).val = c.val) (h1 : (j 1).val = d.val) :
    shapeCast S2048x64 x shapeCasts_S1x2048x64_S2048x64 j = x (ix3 0 c d) := by
  refine shapeCast_apply _ _ j (ix3 0 c d) ?_
  rw [Shape.rowMajor_val_two, Shape.rowMajor_val_three, h0, h1]
  show ((0 : ℕ) * 2048 + c.val) * 64 + d.val = c.val * 64 + d.val
  omega

/-! ## The two tiles -/

/-- The score tile at row `r`, column `c`. -/
theorem scoreTile_apply (x0 : Vec Ideal S1x512x64 .f32) (x1 : Vec Ideal S1x2048x64 .f32) (r : Fin 512) (c : Fin 2048) :
    k0_pay1 (F := Ideal) x0 x1 (ix2 r c)
      = (∑ d : Fin 64, x0 (ix3 0 r d) * x1 (ix3 0 c d)) * Ideal.ofBits .f32 0x3E000000#32 := by
  unfold k0_pay1
  rw [mulf_apply, broadcast_apply]
  refine congrArg (· * Ideal.ofBits .f32 0x3E000000#32) ?_
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  rw [truncf_apply, truncf_apply]
  rw [drop_q x0 _ r d ((qk_lhs_0 _ _).trans rfl) ((qk_lhs_1 _ _).trans hd),
    drop_kv x1 _ c d ((qk_rhs_0 _ _).trans rfl) ((qk_rhs_1 _ _).trans hd)]

/-- The mixed tile at row `r`, column `e`, over the score tile. -/
theorem mixedTile_apply (x0 : Vec Ideal S1x512x64 .f32) (x1 x2 : Vec Ideal S1x2048x64 .f32) (r : Fin 512) (e : Fin 64) :
    k0_pay3 (F := Ideal) x0 x1 x2 (ix3 0 r e)
      = ∑ c : Fin 2048, k0_pay1 (F := Ideal) x0 x1 (ix2 r c) * x2 (ix3 0 c e) := by
  unfold k0_pay3
  refine (shapeCast_apply _ _ (ix3 0 r e) (ix2 r e) (by
    rw [Shape.rowMajor_val_two, Shape.rowMajor_val_three]
    show r.val * 64 + e.val = ((0 : ℕ) * 512 + r.val) * 64 + e.val
    omega)).trans ?_
  simp only [matmul]
  rw [Ideal.matmul_constant_zero_apply, ← Equiv.sum_comp (contrEquiv1 dot_S512x2048_S2048x64_S512x64_1_0_0_1_n_n 2048 rfl rfl).symm]
  refine Finset.sum_congr rfl fun c _ => ?_
  have hc := contrEquiv1_symm_val dot_S512x2048_S2048x64_S512x64_1_0_0_1_n_n 2048 rfl rfl c
  rw [truncf_apply, truncf_apply]
  rw [drop_kv x2 _ c e ((sv_rhs_0 _ _).trans hc) ((sv_rhs_1 _ _).trans rfl)]
  refine congrArg (· * x2 (ix3 0 c e)) ?_
  refine congrArg (k0_pay1 (F := Ideal) x0 x1) ?_
  funext a
  apply Fin.ext
  match a with
  | ⟨0, _⟩ => exact (sv_lhs_0 _ _).trans rfl
  | ⟨1, _⟩ => exact (sv_lhs_1 _ _).trans hc

end Cert.KernelIdeal.Tile

end
-- ==== Proof.Arrays.lean ====
/-
  From tiles to arrays. The grid has 32 × 4 points; point `(b, s)` reads rows `512·s … 512·s + 511` of batch `b` of
  `q` and the whole batch `b` of `k` and `v`, and writes rows `512·s … 512·s + 511` of batch `b` of both results. So
  what a point writes back is its block of the attention specification of the WHOLE argument arrays (each tile entry
  read at the array entry under it), the 128 blocks tile each result, and after the run the first result holds the
  mixed values and the second the scores.
-/
import proofs.«177338_j57827439674168_1_alg».proof.Proof.Gen.KernelIdeal.Value
import proofs.«177338_j57827439674168_1_alg».proof.Proof.Tile
import proofs.«177338_j57827439674168_1_alg».proof.Proof.Attention
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.Attention Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-! ## A point's tiles, entry by entry over its loaded blocks -/

/-- The score tile a point leaves in its staging buffer, from the blocks it loaded. -/
theorem scoreBlock (x0 : Vec Ideal S1x512x64 .f32) (x1 x2 : Vec Ideal S1x2048x64 .f32) (y : S1x512x2048.Idx) :
    out0_4 x0 x1 x2 y
      = (∑ d : Fin 64, x0 (ix3 0 (y 1) d) * x1 (ix3 0 (y 2) d)) * Ideal.ofBits .f32 0x3E000000#32 := by
  unfold out0_4
  rw [View.ld_unit_zero (S := S1x512x64) zero3, View.ld_unit_zero (S := S1x2048x64) zero3, Value.canon4_eq]
  show k0_pay1 x0 x1 (Value.ix4_0 y) = _
  rw [show Value.ix4_0 y = ix2 (y 1) (y 2) from funext fun a => by match a with | ⟨0, _⟩ => rfl | ⟨1, _⟩ => rfl]
  exact Tile.scoreTile_apply x0 x1 _ _

/-- The mixed tile a point leaves in its staging buffer, from the blocks it loaded. -/
theorem mixedBlock (x0 : Vec Ideal S1x512x64 .f32) (x1 x2 : Vec Ideal S1x2048x64 .f32) (y : S1x512x64.Idx) :
    out0_3 x0 x1 x2 y
      = ∑ c : Fin 2048, ((∑ d : Fin 64, x0 (ix3 0 (y 1) d) * x1 (ix3 0 c d)) * Ideal.ofBits .f32 0x3E000000#32)
          * x2 (ix3 0 c (y 2)) := by
  unfold out0_3
  rw [View.canon_unit_zero zero3]
  simp only [View.ld_unit_zero (S := S1x512x64) zero3, View.ld_unit_zero (S := S1x2048x64) zero3]
  have hy : y = (ix3 (n0 := 1) (n1 := 512) (n2 := 64) 0 (y 1) (y 2) : S1x512x64.Idx) := funext fun a => by
    match a with
    | ⟨0, _⟩ => exact Fin.ext (by have h : (y 0).val < 1 := (y 0).isLt; show (y 0).val = 0; omega)
    | ⟨1, _⟩ => rfl
    | ⟨2, _⟩ => rfl
  refine (congrArg (k0_pay3 (F := Ideal) x0 x1 x2) hy).trans ?_
  refine (Tile.mixedTile_apply x0 x1 x2 (y 1) (y 2)).trans ?_
  refine Finset.sum_congr rfl fun c _ => ?_
  exact congrArg (· * x2 (ix3 0 c (y 2))) (Tile.scoreTile_apply x0 x1 (y 1) c)

/-! ## The blocks and the arrays, at their literal types -/

/-- The tile of `q` point `t` loads. -/
abbrev qblk (c : Dev nD) (t : Fin cfg0.N) : Vec Ideal S1x512x64 .f32 := iblk m c 0 t
/-- The slab of `k` point `t` loads. -/
abbrev kblk (c : Dev nD) (t : Fin cfg0.N) : Vec Ideal S1x2048x64 .f32 := iblk m c 1 t
/-- The slab of `v` point `t` loads. -/
abbrev vblk (c : Dev nD) (t : Fin cfg0.N) : Vec Ideal S1x2048x64 .f32 := iblk m c 2 t
/-- The three argument arrays as the region finds them. -/
abbrev qarr (c : Dev nD) : Vec Ideal S32x2048x64 .f32 := V m c main_arg0
abbrev karr (c : Dev nD) : Vec Ideal S32x2048x64 .f32 := V m c main_arg1
abbrev varr (c : Dev nD) : Vec Ideal S32x2048x64 .f32 := V m c main_arg2

/-- The printed index maps over the 128 points: `q`'s tile and both results' blocks move together, `k`'s and `v`'s
    slabs follow the batch alone, and the block indices stay in range. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) ≤ 31 ∧ win0_4.index t (1 : Fin 3) ≤ 3 ∧ win0_4.index t (2 : Fin 3) = 0 :=
  (by decide +kernel : ∀ t : Fin grid0.N, _)

/-- Every (batch, row block) is some point's. -/
theorem idx_onto : ∀ (b : Fin 32) (s : Fin 4), ∃ t : Fin cfg0.N, win0_4.index t = ![b.val, s.val, 0] :=
  (by decide +kernel : ∀ (b : Fin 32) (s : Fin 4), ∃ t : Fin grid0.N, win0_4.index t = ![b.val, s.val, 0])

/-- An entry of `q`'s tile is the array's entry under it. -/
theorem qblk_apply (c : Dev nD) (t : Fin cfg0.N) (y : S1x512x64.Idx) (i : S32x2048x64.Idx)
    (h0 : win0_0.index t (0 : Fin 3) * 1 + 1 * (y 0).val = (i 0).val)
    (h1 : win0_0.index t (1 : Fin 3) * 512 + 1 * (y 1).val = (i 1).val)
    (h2 : win0_0.index t (2 : Fin 3) * 64 + 1 * (y 2).val = (i 2).val) :
    qblk m c t y = qarr m c i := by
  show V m c main_arg0 (((cfg0.win 0).blk t).view.emb y) = V m c main_arg0 i
  refine congrArg (V m c main_arg0) (funext fun a => Fin.ext ?_)
  match a with
  | ⟨0, _⟩ => exact h0
  | ⟨1, _⟩ => exact h1
  | ⟨2, _⟩ => exact h2

/-- An entry of `k`'s slab is the array's entry under it. -/
theorem kblk_apply (c : Dev nD) (t : Fin cfg0.N) (y : S1x2048x64.Idx) (i : S32x2048x64.Idx)
    (h0 : win0_1.index t (0 : Fin 3) * 1 + 1 * (y 0).val = (i 0).val)
    (h1 : win0_1.index t (1 : Fin 3) * 2048 + 1 * (y 1).val = (i 1).val)
    (h2 : win0_1.index t (2 : Fin 3) * 64 + 1 * (y 2).val = (i 2).val) :
    kblk m c t y = karr m c i := by
  show V m c main_arg1 (((cfg0.win 1).blk t).view.emb y) = V m c main_arg1 i
  refine congrArg (V m c main_arg1) (funext fun a => Fin.ext ?_)
  match a with
  | ⟨0, _⟩ => exact h0
  | ⟨1, _⟩ => exact h1
  | ⟨2, _⟩ => exact h2

/-- An entry of `v`'s slab is the array's entry under it. -/
theorem vblk_apply (c : Dev nD) (t : Fin cfg0.N) (y : S1x2048x64.Idx) (i : S32x2048x64.Idx)
    (h0 : win0_2.index t (0 : Fin 3) * 1 + 1 * (y 0).val = (i 0).val)
    (h1 : win0_2.index t (1 : Fin 3) * 2048 + 1 * (y 1).val = (i 1).val)
    (h2 : win0_2.index t (2 : Fin 3) * 64 + 1 * (y 2).val = (i 2).val) :
    vblk m c t y = varr m c i := by
  show V m c main_arg2 (((cfg0.win 2).blk t).view.emb y) = V m c main_arg2 i
  refine congrArg (V m c main_arg2) (funext fun a => Fin.ext ?_)
  match a with
  | ⟨0, _⟩ => exact h0
  | ⟨1, _⟩ => exact h1
  | ⟨2, _⟩ => exact h2

/-! ## What a point writes back -/

/-- Point `t` writes back its block of the scores of the whole arrays. -/
theorem flushedScores (c : Dev nD) (t : Fin cfg0.N) :
    (dats m 0 c).flushed 4 t = ((cfg0.win 4).blk t).view.read (Elt Ideal) (scores (qarr m c) (karr m c)) := by
  rw [Value.flushed4]
  obtain ⟨e00, e01, e02, e10, e11, e12, e20, e21, e22, e30, e31, e32, b0, b1, e42⟩ := idx_facts t
  funext j
  show out0_4 (qblk m c t) (kblk m c t) (vblk m c t) j
    = scoreAt (qarr m c) (karr m c) ((((cfg0.win 4).blk t).view.emb j) 0) ((((cfg0.win 4).blk t).view.emb j) 1) ((((cfg0.win 4).blk t).view.emb j) 2)
  refine (scoreBlock (qblk m c t) (kblk m c t) (vblk m c t) j).trans ?_
  unfold scoreAt
  refine congrArg (· * Ideal.ofBits .f32 0x3E000000#32) (Finset.sum_congr rfl fun d _ => ?_)
  have hj0 : (j 0).val < 1 := (j 0).isLt
  have hj1 : (j 1).val < 512 := (j 1).isLt
  have hj2 : (j 2).val < 2048 := (j 2).isLt
  refine congrArg₂ (· * ·) (qblk_apply m c t _ _ ?_ ?_ ?_) (kblk_apply m c t _ _ ?_ ?_ ?_)
  · show win0_0.index t (0 : Fin 3) * 1 + 1 * 0 = win0_4.index t (0 : Fin 3) * 1 + 1 * (j 0).val; omega
  · show win0_0.index t (1 : Fin 3) * 512 + 1 * (j 1).val = win0_4.index t (1 : Fin 3) * 512 + 1 * (j 1).val; omega
  · show win0_0.index t (2 : Fin 3) * 64 + 1 * d.val = d.val; omega
  · show win0_1.index t (0 : Fin 3) * 1 + 1 * 0 = win0_4.index t (0 : Fin 3) * 1 + 1 * (j 0).val; omega
  · show win0_1.index t (1 : Fin 3) * 2048 + 1 * (j 2).val = win0_4.index t (2 : Fin 3) * 2048 + 1 * (j 2).val; omega
  · show win0_1.index t (2 : Fin 3) * 64 + 1 * d.val = d.val; omega

/-- Point `t` writes back its block of the mixed values of the whole arrays. -/
theorem flushedMixed (c : Dev nD) (t : Fin cfg0.N) :
    (dats m 0 c).flushed 3 t = ((cfg0.win 3).blk t).view.read (Elt Ideal) (mixed (qarr m c) (karr m c) (varr m c)) := by
  rw [Value.flushed3]
  obtain ⟨e00, e01, e02, e10, e11, e12, e20, e21, e22, e30, e31, e32, b0, b1, e42⟩ := idx_facts t
  funext j
  show out0_3 (qblk m c t) (kblk m c t) (vblk m c t) j
    = mixedAt (qarr m c) (karr m c) (varr m c) ((((cfg0.win 3).blk t).view.emb j) 0) ((((cfg0.win 3).blk t).view.emb j) 1) ((((cfg0.win 3).blk t).view.emb j) 2)
  refine (mixedBlock (qblk m c t) (kblk m c t) (vblk m c t) j).trans ?_
  unfold mixedAt scoreAt
  refine Finset.sum_congr rfl fun s _ => ?_
  have hj0 : (j 0).val < 1 := (j 0).isLt
  have hj1 : (j 1).val < 512 := (j 1).isLt
  have hj2 : (j 2).val < 64 := (j 2).isLt
  refine congrArg₂ (· * ·) (congrArg (· * Ideal.ofBits .f32 0x3E000000#32) (Finset.sum_congr rfl fun d _ => ?_)) (vblk_apply m c t _ _ ?_ ?_ ?_)
  · refine congrArg₂ (· * ·) (qblk_apply m c t _ _ ?_ ?_ ?_) (kblk_apply m c t _ _ ?_ ?_ ?_)
    · show win0_0.index t (0 : Fin 3) * 1 + 1 * 0 = win0_3.index t (0 : Fin 3) * 1 + 1 * (j 0).val; omega
    · show win0_0.index t (1 : Fin 3) * 512 + 1 * (j 1).val = win0_3.index t (1 : Fin 3) * 512 + 1 * (j 1).val; omega
    · show win0_0.index t (2 : Fin 3) * 64 + 1 * d.val = d.val; omega
    · show win0_1.index t (0 : Fin 3) * 1 + 1 * 0 = win0_3.index t (0 : Fin 3) * 1 + 1 * (j 0).val; omega
    · show win0_1.index t (1 : Fin 3) * 2048 + 1 * s.val = s.val; omega
    · show win0_1.index t (2 : Fin 3) * 64 + 1 * d.val = d.val; omega
  · show win0_2.index t (0 : Fin 3) * 1 + 1 * 0 = win0_3.index t (0 : Fin 3) * 1 + 1 * (j 0).val; omega
  · show win0_2.index t (1 : Fin 3) * 2048 + 1 * s.val = s.val; omega
  · show win0_2.index t (2 : Fin 3) * 64 + 1 * (j 2).val = win0_3.index t (2 : Fin 3) * 64 + 1 * (j 2).val; omega

/-! ## The blocks tile the results -/

/-- An entry of the scores is in point `t`'s block iff each coordinate is in the block's range. -/
theorem mem_scoreBlk (t : Fin cfg0.N) (i : S32x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

/-- An entry of the mixed values is in point `t`'s block iff each coordinate is in the block's range. -/
theorem mem_mixedBlk (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v0_0).slice (win0_3.rect t)).set ↔ _
  rw [View.set_slice_whole, Rect.mem_set_unit]
  exact Iff.rfl

/-- Every entry of the scores is in the block of the point of its batch and row block. -/
theorem coverScores (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_scoreBlk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Every entry of the mixed values is in the block of the point of its batch and row block. -/
theorem coverMixed (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  obtain ⟨e00, e01, e02, e10, e11, e12, e20, e21, e22, e30, e31, e32, b0, b1, e42⟩ := idx_facts t
  have q0 : win0_4.index t (0 : Fin 3) = (i 0).val := congrFun ht 0
  have q1 : win0_4.index t (1 : Fin 3) = (i 1).val / 512 := congrFun ht 1
  refine ⟨t, flush0_3 t, ?_⟩
  rw [mem_mixedBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The results after the run -/

/-- The second result ends holding the scores of the arguments. -/
theorem finalScores (c : Dev nD) : (dats m 0 c).arrAt 4 cfg0.N = scores (qarr m c) (karr m c) :=
  (dats m 0 c).arrAt_eq_of_cover 4 (scores (qarr m c) (karr m c)) (fun t _ => flushedScores m c t) coverScores

/-- The first result ends holding the mixed values of the arguments. -/
theorem finalMixed (c : Dev nD) : (dats m 0 c).arrAt 3 cfg0.N = mixed (qarr m c) (karr m c) (varr m c) :=
  (dats m 0 c).arrAt_eq_of_cover 3 (mixed (qarr m c) (karr m c) (varr m c)) (fun t _ => flushedMixed m c t) coverMixed

/-- Every weakly fair execution of the kernel ends with the first result at the mixed values and the second at the
    scores of the argument arrays, which are unchanged. -/
theorem run : θ_run defs (onTc (τ := τ) (main (F := Ideal))) ⟨m, fun _ => 0, ρ⟩ fun r => ∀ c : Dev nD,
      r.2.mem ((c : Thread nD τ).loc main_v0_0)
        = mixed (m ((c : Thread nD τ).loc main_arg0)) (m ((c : Thread nD τ).loc main_arg1)) (m ((c : Thread nD τ).loc main_arg2))
      ∧ r.2.mem ((c : Thread nD τ).loc main_v0_1)
        = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalMixed m c), (h c).2.1.trans (finalScores m c), (h c).2.2⟩)
    (Value.run_blocks m ρ)

end Cert.KernelIdeal.Arrays

end
-- ==== Proof.ReferenceValue.lean ====
/-
  The reference, read entry by entry on the extended reals, is the attention specification: its first product
  contracts the last axis of `q` and `k` within a batch, the quotient by the broadcast `√64` is the scale by
  `0.125`, and its second product contracts the scores' last axis with the rows of `v` within the batch.
-/
import proofs.«177338_j57827439674168_1_alg».proof.Proof.Gen.ReferenceIdeal.Read
import proofs.«177338_j57827439674168_1_alg».proof.Proof.Attention

noncomputable section

open scoped BigOperators

namespace Cert.ReferenceIdeal.RefValue

open Cert.ReferenceIdeal Cert.ReferenceIdeal.Read Cert.Attention Idealize.ShloMosaic Idealize.ShloMosaic.ValueIdx

/-- The first product's left operand index: batch, the score's row, the contraction coordinate. -/
theorem lidx_scores (i : S32x2048x2048.Idx) (d : Fin 64) : lidx_main_v1 i d = ix3 (i 0) (i 1) d :=
  funext fun a => Fin.ext (by match a with | ⟨0, _⟩ => rfl | ⟨1, _⟩ => rfl | ⟨2, _⟩ => rfl)
/-- The first product's right operand index: batch, the score's column, the contraction coordinate. -/
theorem ridx_scores (i : S32x2048x2048.Idx) (d : Fin 64) : ridx_main_v1 i d = ix3 (i 0) (i 2) d :=
  funext fun a => Fin.ext (by match a with | ⟨0, _⟩ => rfl | ⟨1, _⟩ => rfl | ⟨2, _⟩ => rfl)
/-- The second product's left operand index: batch, the result's row, the contraction coordinate. -/
theorem lidx_mixed (i : S32x2048x64.Idx) (c : Fin 2048) : lidx_main_v4 i c = ix3 (i 0) (i 1) c :=
  funext fun a => Fin.ext (by match a with | ⟨0, _⟩ => rfl | ⟨1, _⟩ => rfl | ⟨2, _⟩ => rfl)
/-- The second product's right operand index: batch, the contraction coordinate, the result's column. -/
theorem ridx_mixed (i : S32x2048x64.Idx) (c : Fin 2048) : ridx_main_v4 i c = ix3 (i 0) c (i 2) :=
  funext fun a => Fin.ext (by match a with | ⟨0, _⟩ => rfl | ⟨1, _⟩ => rfl | ⟨2, _⟩ => rfl)

/-- The reference's scores are the specification's. -/
theorem scores_eq (q k : (⟨S32x2048x64, .f32⟩ : BufTy).Contents (Elt Ideal)) :
    val_main_v3 (F := Ideal) q k = scores q k := by
  funext i
  rw [val_main_v3_apply, val_main_v1_apply, val_main_v2_apply, val_main_v0_apply, val_main_cst_apply]
  simp only [lidx_scores, ridx_scores]
  exact div_sqrt_64 _

/-- The reference's mixed values are the specification's. -/
theorem mixed_eq (q k v : (⟨S32x2048x64, .f32⟩ : BufTy).Contents (Elt Ideal)) :
    val_main_v4 (F := Ideal) q k v = mixed q k v := by
  funext i
  rw [val_main_v4_apply, scores_eq]
  unfold mixed mixedAt
  refine Finset.sum_congr rfl fun c _ => ?_
  rw [lidx_mixed, ridx_mixed]
  rfl

end Cert.ReferenceIdeal.RefValue

end
-- ==== Proof.lean ====
/-
  Attention with no softmax: `attn = (q · kᵀ) / √d`, `out = attn · v`, with `d = 64`, over `q, k, v : [32, 2048, 64]`.
  The kernel computes, per (batch, 512-row block), the scores as one matrix product scaled by the dyadic `0.125` and
  the mixed values as a second product of those scores with the batch's `v`; the reference computes both by batched
  products over the whole arrays and divides the scores by `√64`. On the extended reals the narrowing of the products'
  operands is the identity, a product into a zero accumulator is the plain sum over the contraction coordinate, and
  dividing by `√64 = 8` is multiplying by `1/8` at every extended real, so both programs end holding the same two
  functions of the arguments (Proof/Attention.lean): the kernel by reading each point's tile at the array entries under
  it and tiling the results with the 128 blocks (Proof/Tile.lean, Proof/Arrays.lean), the reference operation by
  operation (Proof/ReferenceValue.lean). No law used needs finiteness, so the precondition is never opened. The
  idealization rewrote nothing, so `preserves` is trivial.
-/
import proofs.«177338_j57827439674168_1_alg».proof.Defs
import proofs.«177338_j57827439674168_1_alg».proof.Proof.Gen.Kernel
import proofs.«177338_j57827439674168_1_alg».proof.Proof.Gen.Kernel.Skeleton
import proofs.«177338_j57827439674168_1_alg».proof.Proof.Gen.Kernel.Launch
import proofs.«177338_j57827439674168_1_alg».proof.Proof.Gen.Kernel.Points
import proofs.«177338_j57827439674168_1_alg».proof.Proof.Gen.Kernel.Frame
import proofs.«177338_j57827439674168_1_alg».proof.Proof.Gen.KernelIdeal
import proofs.«177338_j57827439674168_1_alg».proof.Proof.Gen.KernelIdeal.Skeleton
import proofs.«177338_j57827439674168_1_alg».proof.Proof.Gen.KernelIdeal.Launch
import proofs.«177338_j57827439674168_1_alg».proof.Proof.Gen.KernelIdeal.Points
import proofs.«177338_j57827439674168_1_alg».proof.Proof.Gen.KernelIdeal.Frame
import proofs.«177338_j57827439674168_1_alg».proof.Proof.Gen.ReferenceIdeal
import proofs.«177338_j57827439674168_1_alg».proof.Proof.Gen.Pre_finite_inputs
import proofs.«177338_j57827439674168_1_alg».proof.Proof.Gen.KernelIdeal.Value
import proofs.«177338_j57827439674168_1_alg».proof.Proof.Gen.ReferenceIdeal.Run
import proofs.«177338_j57827439674168_1_alg».proof.Proof.Gen.ReferenceIdeal.Read
import proofs.«177338_j57827439674168_1_alg».proof.Proof.Attention
import proofs.«177338_j57827439674168_1_alg».proof.Proof.Tile
import proofs.«177338_j57827439674168_1_alg».proof.Proof.Arrays
import proofs.«177338_j57827439674168_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From arguments that agree, both programs end with the first result at the mixed values and the second at the
    scores of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.ReferenceIdeal.RefValue.mixed_eq, (hagree c).1, (hagree c).2.1, (hagree c).2.2]
  · rw [Cert.ReferenceIdeal.Read.val_main_v3_eq, Cert.ReferenceIdeal.RefValue.scores_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
